-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4x4096x512 .f32) (main_arg1 : FVec F S4x4096x512 .f32) (main_arg2 : FVec F S512x512 .f32) (main_arg3 : FVec F S512 .f32) (main_arg4 : FVec F S512x512 .f32) (main_arg5 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x4096x512 : Shape := ⟨3, ![4, 4096, 512]⟩
abbrev S512x512 : Shape := ⟨2, ![512, 512]⟩
abbrev S512 : Shape := ⟨1, ![512]⟩
abbrev S1x512 : Shape := ⟨2, ![1, 512]⟩
abbrev S1x512x512 : Shape := ⟨3, ![1, 512, 512]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S4x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S512_S1x512 : S512.ShapeCasts S1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  broadcasts_S1x512_S512x512 : S1x512.Broadcasts S512x512
  shapeCasts_S512x512_S1x512x512 : S512x512.ShapeCasts S1x512x512
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x4096x512.size a
  hwx0_0 : ∀ i : grid0.Coords, EltTy.bits .f32 = 32 ∨ (Rect.block (s := S4x4096x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x4096x512.size a
  hwx0_1 : ∀ i : grid0.Coords, EltTy.bits .f32 = 32 ∨ (Rect.block (s := S4x4096x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S4x4096x512.size a
  hwx0_6 : ∀ i : grid0.Coords, EltTy.bits .f32 = 32 ∨ (Rect.block (s := S4x4096x512) S1x512x512.size (cc0_transform_6 i) (hinb0_6 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S4x4096x512, .f32⟩
  | .hbm, ⟨7, _⟩ => ⟨S1x1x512, .f32⟩
  | .hbm, ⟨8, _⟩ => ⟨S4x4096x512, .f32⟩
  | .hbm, ⟨9, _⟩ => ⟨S4x4096x512, .f32⟩
  | .hbm, ⟨10, _⟩ => ⟨S4x4096x512, .f32⟩
  | .hbm, ⟨11, _⟩ => ⟨S4x4096x512, .f32⟩
  | .hbm, ⟨12, _⟩ => ⟨S4x4096x512, .f32⟩
  | .hbm, ⟨13, _⟩ => ⟨S512x512, .f32⟩
  | .hbm, ⟨14, _⟩ => ⟨S4x4096x512, .f32⟩
  | .hbm, ⟨15, _⟩ => ⟨S_, .f32⟩
  | .hbm, ⟨16, _⟩ => ⟨S4x4096x512, .f32⟩
  | .hbm, ⟨17, _⟩ => ⟨S4x4096x512, .f32⟩
  | .hbm, ⟨18, _⟩ => ⟨S4x4096x512, .f32⟩
  | .hbm, ⟨19, _⟩ => ⟨S4x4096x512, .f32⟩
  | .hbm, ⟨20, _⟩ => ⟨S1x1x512, .f32⟩
  | .hbm, ⟨21, _⟩ => ⟨S4x4096x512, .f32⟩
  | .hbm, ⟨22, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x512 : S_.BroadcastsInDim S4x4096x512 (![] : Fin 0 → Fin S4x4096x512.rank)
  dot_S4x4096x512_S512x512_S4x4096x512_2_1_01_0_n_n_wf : DotDims.WF S4x4096x512 S512x512 S4x4096x512 [2] [1] [0, 1] [0] [] []

variable [Facts₀]

def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf

class Facts : Prop extends Facts₀ where

variable [Facts]
-- ==== Proof.KernelBlocks.lean ====
/-
  The kernel's windows, read at an index.

  The grid is 4 × 8: point t works on batch b = t / 8 and on the sequence tile s = t mod 8 of 512 tokens. The x block,
  the modulation block and the output block at t are rows 512·s … 512·s + 511 of batch b, all 512 features; the
  weight and mod_w windows are the whole matrices at every point; the two bias windows are the bias vectors laid out as
  one-row matrices by the host before the call.
-/
import proofs.«149565_j46935402611220_1_alg».proof.Proof.Gen.KernelIdeal.Frame
import Idealize.ShloMosaic.Lib.Pipeline.Value
import Idealize.ShloMosaic.Lib.StableHlo.Run
import Idealize.ShloMosaic.Lib.ValueLayout

noncomputable section

namespace Cert.ModLinear.Kern

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps over the 32 grid points: x and modulation move with the output's block on the batch and
    sequence axes, every window sits at feature block 0, the four resident windows at block (0, 0), and the output's
    block indices stay below 4 and 8. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = win0_6.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) < 4 ∧ win0_6.index t (1 : Fin 3) < 8 ∧ win0_6.index t (2 : Fin 3) = 0 :=
  (by decide +kernel : ∀ t : Fin grid0.N, _)

/-- Every (batch, sequence tile) pair is some point's output block. -/
theorem idx_onto : ∀ (q0 : Fin 4) (q1 : Fin 8), ∃ t : Fin cfg0.N, win0_6.index t = ![q0.val, q1.val, 0] :=
  (by decide +kernel : ∀ (q0 : Fin 4) (q1 : Fin 8), ∃ t : Fin grid0.N, win0_6.index t = ![q0.val, q1.val, 0])

/-- The x block at point t, at a block index y, is x at the array index k with those coordinates. -/
theorem xblk_apply (c : Dev nD) (t : Fin cfg0.N) (y : S1x512x512.Idx) (k : S4x4096x512.Idx)
    (h0 : (k 0).val = win0_0.index t (0 : Fin 3) * 1 + 1 * (y 0).val)
    (h1 : (k 1).val = win0_0.index t (1 : Fin 3) * 512 + 1 * (y 1).val)
    (h2 : (k 2).val = win0_0.index t (2 : Fin 3) * 512 + 1 * (y 2).val) :
    (iblk m c 0 t : Vec Ideal S1x512x512 .f32) y = (m ((c : Thread nD τ).loc main_arg0) : S4x4096x512.Idx → EReal) k := by
  unfold iblk
  rw [View.read_apply]
  show V m c main_arg0 _ = m ((c : Thread nD τ).loc main_arg0) _
  rw [V_main_arg0]
  congr 1
  funext a
  apply Fin.ext
  match a with
  | ⟨0, _⟩ => exact h0.symm
  | ⟨1, _⟩ => exact h1.symm
  | ⟨2, _⟩ => exact h2.symm

/-- The modulation block at point t, likewise. -/
theorem mdblk_apply (c : Dev nD) (t : Fin cfg0.N) (y : S1x512x512.Idx) (k : S4x4096x512.Idx)
    (h0 : (k 0).val = win0_1.index t (0 : Fin 3) * 1 + 1 * (y 0).val)
    (h1 : (k 1).val = win0_1.index t (1 : Fin 3) * 512 + 1 * (y 1).val)
    (h2 : (k 2).val = win0_1.index t (2 : Fin 3) * 512 + 1 * (y 2).val) :
    (iblk m c 1 t : Vec Ideal S1x512x512 .f32) y = (m ((c : Thread nD τ).loc main_arg1) : S4x4096x512.Idx → EReal) k := by
  unfold iblk
  rw [View.read_apply]
  show V m c main_arg1 _ = m ((c : Thread nD τ).loc main_arg1) _
  rw [V_main_arg1]
  congr 1
  funext a
  apply Fin.ext
  match a with
  | ⟨0, _⟩ => exact h0.symm
  | ⟨1, _⟩ => exact h1.symm
  | ⟨2, _⟩ => exact h2.symm

/-- The weight window at any point is the whole weight matrix. -/
theorem wblk_apply (c : Dev nD) (t : Fin cfg0.N) (y : S512x512.Idx) :
    (iblk m c 2 t : Vec Ideal S512x512 .f32) y = (m ((c : Thread nD τ).loc main_arg2) : S512x512.Idx → EReal) y := by
  obtain ⟨-, -, -, -, -, -, e0, e1, -⟩ := idx_facts t
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- The mod_w window at any point is the whole mod_w matrix. -/
theorem mwblk_apply (c : Dev nD) (t : Fin cfg0.N) (y : S512x512.Idx) :
    (iblk m c 4 t : Vec Ideal S512x512 .f32) y = (m ((c : Thread nD τ).loc main_arg4) : S512x512.Idx → EReal) y := by
  obtain ⟨-, -, -, -, -, -, -, -, -, -, e0, e1, -⟩ := idx_facts t
  unfold iblk
  rw [View.read_apply]
  show V m c main_arg4 _ = m ((c : Thread nD τ).loc main_arg4) _
  rw [V_main_arg4]
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega

/-- The host lays bias out as a one-row matrix before the call. -/
theorem V_bias (c : Dev nD) : (V m c main_v0 : S1x512.Idx → EReal)
    = shapeCast S1x512 (m ((c : Thread nD τ).loc main_arg3) : S512.Idx → EReal) shapeCasts_S512_S1x512 := by
  dsimp only [V, hostOps0]; after_results; rfl

/-- The host lays mod_b out as a one-row matrix before the call. -/
theorem V_modb (c : Dev nD) : (V m c main_v1 : S1x512.Idx → EReal)
    = shapeCast S1x512 (m ((c : Thread nD τ).loc main_arg5) : S512.Idx → EReal) shapeCasts_S512_S1x512 := by
  dsimp only [V, hostOps0]; after_results; rfl

/-- The bias window at any point, at column a of its one row, is bias[a]. -/
theorem biasblk_apply (c : Dev nD) (t : Fin cfg0.N) (a : Fin 512) :
    (iblk m c 3 t : Vec Ideal S1x512 .f32) (ix2 (0 : Fin 1) a) = (m ((c : Thread nD τ).loc main_arg3) : S512.Idx → EReal) (ix1 a) := by
  obtain ⟨-, -, -, -, -, -, -, -, e0, e1, -⟩ := idx_facts t
  unfold iblk
  rw [View.read_apply]
  show V m c main_v0 _ = _
  rw [V_bias, ← shapeCast_a_1a_apply (m ((c : Thread nD τ).loc main_arg3) : S512.Idx → EReal) shapeCasts_S512_S1x512 (0 : Fin 1) a]
  congr 1
  funext d
  apply Fin.ext
  match d with
  | ⟨0, _⟩ => show win0_3.index t (0 : Fin 2) * 1 + 1 * 0 = 0; rw [e0]
  | ⟨1, _⟩ => show win0_3.index t (1 : Fin 2) * 512 + 1 * a.val = a.val; rw [e1]; omega

/-- The mod_b window at any point, at column i of its one row, is mod_b[i]. -/
theorem modbblk_apply (c : Dev nD) (t : Fin cfg0.N) (i : Fin 512) :
    (iblk m c 5 t : Vec Ideal S1x512 .f32) (ix2 (0 : Fin 1) i) = (m ((c : Thread nD τ).loc main_arg5) : S512.Idx → EReal) (ix1 i) := by
  obtain ⟨-, -, -, -, -, -, -, -, -, -, -, -, e0, e1, -⟩ := idx_facts t
  unfold iblk
  rw [View.read_apply]
  show V m c main_v1 _ = _
  rw [V_modb, ← shapeCast_a_1a_apply (m ((c : Thread nD τ).loc main_arg5) : S512.Idx → EReal) shapeCasts_S512_S1x512 (0 : Fin 1) i]
  congr 1
  funext d
  apply Fin.ext
  match d with
  | ⟨0, _⟩ => show win0_5.index t (0 : Fin 2) * 1 + 1 * 0 = 0; rw [e0]
  | ⟨1, _⟩ => show win0_5.index t (1 : Fin 2) * 512 + 1 * i.val = i.val; rw [e1]; omega

end Cert.ModLinear.Kern

end
-- ==== Proof.KernelMatmul.lean ====
/-
  The kernel's matrix product, read at an index.

  All three products of the body contract axis 1 of a [512, 512] left operand with axis 1 of a [512, 512] right operand
  into a zero accumulator: at (p, q) the result is the sum over k of the left operand at (p, k) times the right
  operand at (q, k) — a row of the left against a ROW of the right (the right operand is used transposed).
-/
import proofs.«149565_j46935402611220_1_alg».proof.Proof.Gen.KernelIdeal
import Idealize.ShloMosaic.Lib.ValueIdx
import Idealize.ShloMosaic.PureOps.Ideal.Laws

noncomputable section

namespace Cert.ModLinear.Kern

open Cert.KernelIdeal Cert.KernelIdeal.Gen Idealize.ShloMosaic Idealize.ShloMosaic.ValueIdx

/-- The left operand's row is the output's row. -/
theorem lhs_axis0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
/-- The left operand's column is the contraction position. -/
theorem lhs_axis1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
/-- The right operand's row is the output's column. -/
theorem rhs_axis0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
/-- The right operand's column is the contraction position. -/
theorem rhs_axis1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product into a zero accumulator at (p, q): row p of the left operand against row q of the right. -/
theorem matmul_at {φ₁ φ₂ : FTy} (L : FVec Ideal S512x512 φ₁) (R : FVec Ideal S512x512 φ₂) (p q : Fin 512) :
    matmul dot_S512x512_S512x512_S512x512_1_1_0_0_n_n none L R (constant S512x512 .f32 0x00000000#32) (ix2 p q)
      = ∑ k : Fin 512, L (ix2 p k) * R (ix2 q k) := by
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q) ((contrEquiv1 dot_S512x512_S512x512_S512x512_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S512x512_S512x512_S512x512_1_1_0_0_n_n.rhsIdx (ix2 p q) ((contrEquiv1 dot_S512x512_S512x512_S512x512_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

end Cert.ModLinear.Kern

end
-- ==== Proof.KernelPayload.lean ====
/-
  The kernel body's stored value, read at an index of the output block.

  For one tile of 512 tokens the body holds: the x block and the modulation block [1, 512, 512], the matrices weight
  and mod_w [512, 512], and the two biases as one-row matrices [1, 512]. Its three matrix products each contract the
  second axis of both operands, so at row p (a token of the tile) the body computes
      s[p,i] = (∑ m, modulation[p,m] · mod_w[i,m]) + mod_b[i]
  and at (p, q)
      (∑ i, (x[p,i] · s[p,i]) · weight[q,i]) · rsqrt((∑ i, (s[p,i] · s[p,i]) · (weight[q,i] · weight[q,i])) + ε) + bias[q];
  the narrowing casts in front of the products are the identity on extended reals.
-/
import proofs.«149565_j46935402611220_1_alg».proof.Proof.Gen.KernelIdeal.Skeleton
import proofs.«149565_j46935402611220_1_alg».proof.Proof.KernelMatmul
import Idealize.ShloMosaic.Lib.ValueLayout

noncomputable section

namespace Cert.ModLinear.Kern

open Cert.KernelIdeal Cert.KernelIdeal.Gen Idealize.ShloMosaic Idealize.ShloMosaic.ValueIdx

/-- The tile's per-token scale at row p, feature i, from the loaded blocks. -/
def tileScale (v2 : Vec Ideal S1x512x512 .f32) (v7 : Vec Ideal S512x512 .f32) (v8 : Vec Ideal S1x512 .f32) (p i : Fin 512) : EReal :=
  (∑ m : Fin 512, v2 (ix3 (0 : Fin 1) p m) * v7 (ix2 i m)) + v8 (ix2 (0 : Fin 1) i)

/-- What the body stores at (p, q) of the tile, from the loaded blocks. -/
def tileOut (v0 v2 : Vec Ideal S1x512x512 .f32) (v4 : Vec Ideal S512x512 .f32) (v5 : Vec Ideal S1x512 .f32)
    (v7 : Vec Ideal S512x512 .f32) (v8 : Vec Ideal S1x512 .f32) (p q : Fin 512) : EReal :=
  (∑ i : Fin 512, (v0 (ix3 (0 : Fin 1) p i) * tileScale v2 v7 v8 p i) * v4 (ix2 q i))
    * Ideal.rsqrt ((∑ i : Fin 512, (tileScale v2 v7 v8 p i * tileScale v2 v7 v8 p i) * (v4 (ix2 q i) * v4 (ix2 q i)))
        + Ideal.ofBits .f32 0x322BCC77#32)
    + v5 (ix2 (0 : Fin 1) q)

/-- The body's scale (its value %14) at row p, feature i: the modulation row against row i of mod_w, plus mod_b[i]. -/
theorem scale_at (v2 : Vec Ideal S1x512x512 .f32) (v7 : Vec Ideal S512x512 .f32) (v8 : Vec Ideal S1x512 .f32) (p i : Fin 512) :
    (addf (matmul dot_S512x512_S512x512_S512x512_1_1_0_0_n_n none
          (truncf .bf16 (shapeCast S512x512 v2 shapeCasts_S1x512x512_S512x512) bitsLt_bf16_f32)
          (truncf .bf16 v7 bitsLt_bf16_f32) (constant S512x512 .f32 0x00000000#32))
        (broadcastTo S512x512 (shapeCast S1x512 v8 shapeCasts_S1x512_S1x512) broadcasts_S1x512_S512x512) : FVec Ideal S512x512 .f32) (ix2 p i)
      = tileScale v2 v7 v8 p i := by
  rw [addf_apply, matmul_at, broadcastTo_1b_ab_apply, shapeCast_self]
  simp only [truncf_apply, shapeCast_1ab_ab_apply]
  rfl

/-- The body's stored value at (p, q) of the tile. -/
theorem pay_at (v0 v2 : Vec Ideal S1x512x512 .f32) (v4 : Vec Ideal S512x512 .f32) (v5 : Vec Ideal S1x512 .f32)
    (v7 : Vec Ideal S512x512 .f32) (v8 : Vec Ideal S1x512 .f32) (u : Fin 1) (p q : Fin 512) :
    k0_pay1 (F := Ideal) v0 v2 v4 v5 v7 v8 (ix3 u p q) = tileOut v0 v2 v4 v5 v7 v8 p q := by
  unfold k0_pay1
  rw [shapeCast_ab_1ab_apply, addf_apply, mulf_apply, matmul_at, broadcastTo_1b_ab_apply]
  simp only [rsqrt]
  rw [addf_apply, matmul_at, broadcast_apply]
  simp only [truncf_apply, mulf_apply, shapeCast_1ab_ab_apply, scale_at]
  rw [shapeCast_self]
  rfl

end Cert.ModLinear.Kern

end
-- ==== Proof.Spec.lean ====
/-
  The modulated linear layer as one function of its six argument arrays, index by index, on the extended reals.

  For a token (b, r) and an input feature i the per-token scale is
      s[b,r,i] = (∑ m, modulation[b,r,m] · mod_w[i,m]) + mod_b[i],
  and the layer's output at (b, r, o) is
      (∑ i, (x[b,r,i] · s[b,r,i]) · weight[o,i]) · rsqrt((∑ i, (s[b,r,i] · s[b,r,i]) · (weight[o,i] · weight[o,i])) + ε) + bias[o],
  with ε the binary32 word 0x322BCC77 both programs carry. Both programs compute exactly this tree of sums and
  products (the kernel tile by tile over 512 tokens, the reference over all 16384 at once), so no law of the
  extended reals beyond reading each operation at an index is needed to join them.
-/
import Idealize.ShloMosaic.PureOps.Ideal
import Idealize.ShloMosaic.Lib.ValueIdx

noncomputable section

namespace Cert.ModLinear

open Idealize.ShloMosaic Idealize.ShloMosaic.ValueIdx

/-- The token arrays x, modulation and the output: batch × sequence × feature. -/
abbrev Tok : Shape := ⟨3, ![4, 4096, 512]⟩
/-- The two square matrices weight[o,i] and mod_w[i,m]. -/
abbrev Mat : Shape := ⟨2, ![512, 512]⟩
/-- The two bias vectors. -/
abbrev Row : Shape := ⟨1, ![512]⟩

/-- The per-token scale s[b,r,i]: the modulation row of token (b, r) against row i of mod_w, plus mod_b[i]. -/
def scale (md : Tok.Idx → EReal) (mw : Mat.Idx → EReal) (mb : Row.Idx → EReal) (b : Fin 4) (r : Fin 4096) (i : Fin 512) : EReal :=
  (∑ m : Fin 512, md (ix3 b r m) * mw (ix2 i m)) + mb (ix1 i)

/-- The scaled input row against row o of the weight: ∑ i, (x[b,r,i] · s[b,r,i]) · weight[o,i]. -/
def numer (x md : Tok.Idx → EReal) (w mw : Mat.Idx → EReal) (mb : Row.Idx → EReal) (b : Fin 4) (r : Fin 4096) (o : Fin 512) : EReal :=
  ∑ i : Fin 512, (x (ix3 b r i) * scale md mw mb b r i) * w (ix2 o i)

/-- The squared norm the output is demodulated by: ∑ i, s[b,r,i]² · weight[o,i]². -/
def sqnorm (md : Tok.Idx → EReal) (w mw : Mat.Idx → EReal) (mb : Row.Idx → EReal) (b : Fin 4) (r : Fin 4096) (o : Fin 512) : EReal :=
  ∑ i : Fin 512, (scale md mw mb b r i * scale md mw mb b r i) * (w (ix2 o i) * w (ix2 o i))

/-- The layer's output at token (b, r) and output feature o. -/
def out (x md : Tok.Idx → EReal) (w : Mat.Idx → EReal) (bias : Row.Idx → EReal) (mw : Mat.Idx → EReal) (mb : Row.Idx → EReal)
    (b : Fin 4) (r : Fin 4096) (o : Fin 512) : EReal :=
  numer x md w mw mb b r o * Ideal.rsqrt (sqnorm md w mw mb b r o + Ideal.ofBits .f32 0x322BCC77#32) + bias (ix1 o)

/-- The whole output array. -/
def result (x md : Tok.Idx → EReal) (w : Mat.Idx → EReal) (bias : Row.Idx → EReal) (mw : Mat.Idx → EReal) (mb : Row.Idx → EReal) :
    Tok.Idx → EReal := fun j => out x md w bias mw mb (j 0) (j 1) (j 2)

end Cert.ModLinear

end
-- ==== Proof.TileSpec.lean ====
/-
  One tile of the kernel against the specification.

  If the loaded blocks hold, at row p of the tile, the rows of x and modulation that belong to token (b, r), and the
  two matrices and the two biases whole, then what the body stores at (p, q) is the layer's output at (b, r, q): both
  are the same tree of sums and products, read off the same array entries.
-/
import proofs.«149565_j46935402611220_1_alg».proof.Proof.KernelPayload
import proofs.«149565_j46935402611220_1_alg».proof.Proof.Spec

noncomputable section

namespace Cert.ModLinear.Kern

open Cert.KernelIdeal Idealize.ShloMosaic Idealize.ShloMosaic.ValueIdx

theorem tileOut_eq (X MD : Tok.Idx → EReal) (W : Mat.Idx → EReal) (bias : Row.Idx → EReal) (MW : Mat.Idx → EReal) (mb : Row.Idx → EReal)
    (v0 v2 : Vec Ideal S1x512x512 .f32) (v4 : Vec Ideal S512x512 .f32) (v5 : Vec Ideal S1x512 .f32)
    (v7 : Vec Ideal S512x512 .f32) (v8 : Vec Ideal S1x512 .f32)
    (b : Fin 4) (r : Fin 4096) (p q o : Fin 512) (ho : o.val = q.val)
    (h0 : ∀ i : Fin 512, v0 (ix3 (0 : Fin 1) p i) = X (ix3 b r i))
    (h2 : ∀ i : Fin 512, v2 (ix3 (0 : Fin 1) p i) = MD (ix3 b r i))
    (h4 : ∀ a i : Fin 512, v4 (ix2 a i) = W (ix2 a i))
    (h7 : ∀ i k : Fin 512, v7 (ix2 i k) = MW (ix2 i k))
    (h5 : ∀ a : Fin 512, v5 (ix2 (0 : Fin 1) a) = bias (ix1 a))
    (h8 : ∀ i : Fin 512, v8 (ix2 (0 : Fin 1) i) = mb (ix1 i)) :
    tileOut v0 v2 v4 v5 v7 v8 p q = out X MD W bias MW mb b r o := by
  obtain rfl : o = q := Fin.ext ho
  unfold tileOut tileScale out numer sqnorm scale
  simp only [h0, h2, h4, h7, h5, h8]

end Cert.ModLinear.Kern

end
-- ==== Proof.KernelValue.lean ====
/-
  The kernel's result array after the run is the specification of the six arguments.

  Point t of the 4 × 8 grid writes back the block of 512 tokens (batch b = its first block index, sequence tile s = its
  second) of the output. What it writes is the body's stored value over the blocks it was given; those blocks are the
  matching rows of x and modulation and the whole of weight, mod_w, bias and mod_b, so the written block is that block
  of the specification. The 32 blocks tile the output array, hence the array ends holding the specification.
-/
import proofs.«149565_j46935402611220_1_alg».proof.Proof.Gen.KernelIdeal.Value
import proofs.«149565_j46935402611220_1_alg».proof.Proof.KernelBlocks
import proofs.«149565_j46935402611220_1_alg».proof.Proof.TileSpec

noncomputable section

namespace Cert.ModLinear.Kern

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The specification of the arguments as launched on core c. -/
abbrev spec (c : Dev nD) : S4x4096x512.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point t writes back is block t of the specification. -/
theorem flushed_eq (c : Dev nD) (t : Fin cfg0.N) :
    (dats m 0 c).flushed 6 t = ((cfg0.win 6).blk t).view.read (Elt Ideal) (spec m c) := by
  rw [Cert.KernelIdeal.Value.flushed6]
  unfold out0_6
  rw [View.canon_unit_zero hz3]
  simp only [View.ld_unit_zero (S := S1x512x512) hz3, View.ld_unit_zero (S := S512x512) hz2, View.ld_unit_zero (S := S1x512) hz2]
  obtain ⟨x0, x1, x2, d0, d1, d2, -, -, -, -, -, -, -, -, b0, b1, o2⟩ := idx_facts t
  funext j
  have hj0 : (j 0).val < 1 := (j 0).isLt
  have hj1 : (j 1).val < 512 := (j 1).isLt
  have hj2 : (j 2).val < 512 := (j 2).isLt
  -- the array index of entry j of the output block
  have K0 : ((((cfg0.win 6).blk t).view.emb j) 0).val = win0_6.index t (0 : Fin 3) * 1 + 1 * (j 0).val := rfl
  have K1 : ((((cfg0.win 6).blk t).view.emb j) 1).val = win0_6.index t (1 : Fin 3) * 512 + 1 * (j 1).val := rfl
  have K2 : ((((cfg0.win 6).blk t).view.emb j) 2).val = win0_6.index t (2 : Fin 3) * 512 + 1 * (j 2).val := rfl
  show k0_pay1 (iblk m c 0 t) (iblk m c 1 t) (iblk m c 2 t) (iblk m c 3 t) (iblk m c 4 t) (iblk m c 5 t) j
      = spec m c (((cfg0.win 6).blk t).view.emb j)
  refine ((congrArg (k0_pay1 (iblk m c 0 t) (iblk m c 1 t) (iblk m c 2 t) (iblk m c 3 t) (iblk m c 4 t) (iblk m c 5 t)) (eq_ix3 j)).trans
    (pay_at (iblk m c 0 t) (iblk m c 1 t) (iblk m c 2 t) (iblk m c 3 t) (iblk m c 4 t) (iblk m c 5 t) (j 0) (j 1) (j 2))).trans ?_
  refine tileOut_eq _ _ _ _ _ _ (iblk m c 0 t) (iblk m c 1 t) (iblk m c 2 t) (iblk m c 3 t) (iblk m c 4 t) (iblk m c 5 t)
    ((((cfg0.win 6).blk t).view.emb j) 0) ((((cfg0.win 6).blk t).view.emb j) 1) (j 1) (j 2) ((((cfg0.win 6).blk t).view.emb j) 2)
    (by rw [K2, o2]; omega) ?_ ?_ ?_ ?_ ?_ ?_
  · intro i
    refine xblk_apply m c t _ _ ?_ ?_ ?_
    · show ((((cfg0.win 6).blk t).view.emb j) 0).val = win0_0.index t (0 : Fin 3) * 1 + 1 * 0
      rw [K0, x0]; omega
    · show ((((cfg0.win 6).blk t).view.emb j) 1).val = win0_0.index t (1 : Fin 3) * 512 + 1 * (j 1).val
      rw [K1, x1]
    · show i.val = win0_0.index t (2 : Fin 3) * 512 + 1 * i.val
      rw [x2]; omega
  · intro i
    refine mdblk_apply m c t _ _ ?_ ?_ ?_
    · show ((((cfg0.win 6).blk t).view.emb j) 0).val = win0_1.index t (0 : Fin 3) * 1 + 1 * 0
      rw [K0, d0]; omega
    · show ((((cfg0.win 6).blk t).view.emb j) 1).val = win0_1.index t (1 : Fin 3) * 512 + 1 * (j 1).val
      rw [K1, d1]
    · show i.val = win0_1.index t (2 : Fin 3) * 512 + 1 * i.val
      rw [d2]; omega
  · intro a i; exact wblk_apply m c t _
  · intro i k; exact mwblk_apply m c t _
  · intro a; exact biasblk_apply m c t a
  · intro i; exact modbblk_apply m c t i

/-- An index of the output array is in point t's block iff each coordinate is in the block's range on its axis. -/
theorem mem_blk (t : Fin cfg0.N) (i : S4x4096x512.Idx) :
    i ∈ ((cfg0.win 6).blk t).view.set ↔ ∀ a : Fin 3, win0_6.index t a * S1x512x512.size a ≤ (i a).val ∧ (i a).val < win0_6.index t a * S1x512x512.size a + S1x512x512.size a := by
  show i ∈ ((View.whole main_v2).slice (win0_6.rect t)).set ↔ _
  rw [View.set_slice_whole, Rect.mem_set_unit]
  exact Iff.rfl

/-- Every index of the output array is in some point's block: batch (i 0), sequence tile (i 1) / 512. -/
theorem covered (i : S4x4096x512.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 512 := (i 2).isLt
  obtain ⟨t, ht⟩ := idx_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 512 ≤ (i 2).val ∧ (i 2).val < win0_6.index t (2 : Fin 3) * 512 + 512; omega

/-- The output array after the run is the specification. -/
theorem final (c : Dev nD) : (dats m 0 c).arrAt 6 cfg0.N = spec m c :=
  (dats m 0 c).arrAt_eq_of_cover 6 (spec m c) (fun t _ => flushed_eq m c t) covered

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.ModLinear.Kern

end
-- ==== Proof.RefValue.lean ====
/-
  The reference, read at an index: its last stage is the specification's `result` of the six arguments.

  The reference contracts the feature axis of a [4, 4096, 512] array against axis 1 of a [512, 512] matrix three times
  (modulation against mod_w, x · s against weight, s² against weight²); each is, at an output index (b, r, o), the sum
  over k of the left operand at (b, r, k) times the right at (o, k). The two biases are broadcast along the feature
  axis. Reading every stage at an index and naming the operand indices by their coordinates gives the specification
  term for term.
-/
import proofs.«149565_j46935402611220_1_alg».proof.Proof.Gen.ReferenceIdeal.Read
import proofs.«149565_j46935402611220_1_alg».proof.Proof.Spec

noncomputable section

namespace Cert.ModLinear.Ref

open Cert.ReferenceIdeal Cert.ReferenceIdeal.Read Idealize.ShloMosaic Idealize.ShloMosaic.ValueIdx

/-- The left operand's index of the first contraction: the output's token, feature k. -/
theorem lidx0 (i : S4x4096x512.Idx) (k : Fin 512) : lidx_main_v0 i k = ix3 (n0 := 4) (n1 := 4096) (n2 := 512) (i 0) (i 1) k :=
  funext fun a => by match a with | ⟨0, _⟩ => rfl | ⟨1, _⟩ => rfl | ⟨2, _⟩ => rfl
/-- The right operand's: row (the output's feature), column k. -/
theorem ridx0 (i : S4x4096x512.Idx) (k : Fin 512) : ridx_main_v0 i k = ix2 (n0 := 512) (n1 := 512) (i 2) k :=
  funext fun a => by match a with | ⟨0, _⟩ => rfl | ⟨1, _⟩ => rfl
theorem lidx5 (i : S4x4096x512.Idx) (k : Fin 512) : lidx_main_v5 i k = ix3 (n0 := 4) (n1 := 4096) (n2 := 512) (i 0) (i 1) k :=
  funext fun a => by match a with | ⟨0, _⟩ => rfl | ⟨1, _⟩ => rfl | ⟨2, _⟩ => rfl
theorem ridx5 (i : S4x4096x512.Idx) (k : Fin 512) : ridx_main_v5 i k = ix2 (n0 := 512) (n1 := 512) (i 2) k :=
  funext fun a => by match a with | ⟨0, _⟩ => rfl | ⟨1, _⟩ => rfl
theorem lidx8 (i : S4x4096x512.Idx) (k : Fin 512) : lidx_main_v8 i k = ix3 (n0 := 4) (n1 := 4096) (n2 := 512) (i 0) (i 1) k :=
  funext fun a => by match a with | ⟨0, _⟩ => rfl | ⟨1, _⟩ => rfl | ⟨2, _⟩ => rfl
theorem ridx8 (i : S4x4096x512.Idx) (k : Fin 512) : ridx_main_v8 i k = ix2 (n0 := 512) (n1 := 512) (i 2) k :=
  funext fun a => by match a with | ⟨0, _⟩ => rfl | ⟨1, _⟩ => rfl
/-- A bias broadcast along the feature axis is read at the output's feature. -/
theorem bidx5 (i : S4x4096x512.Idx) : idx_main_v1 (idx_main_v2 i) = ix1 (n := 512) (i 2) :=
  funext fun a => by match a with | ⟨0, _⟩ => rfl
theorem bidx3 (i : S4x4096x512.Idx) : idx_main_v13 (idx_main_v14 i) = ix1 (n := 512) (i 2) :=
  funext fun a => by match a with | ⟨0, _⟩ => rfl

/-- The reference's per-token scale (its stage %3) is the specification's. -/
theorem scale_eq (x1 : Tok.Idx → EReal) (x4 : Mat.Idx → EReal) (x5 : Row.Idx → EReal) (i : S4x4096x512.Idx) :
    val_main_v3 (F := Ideal) x1 x4 x5 i = scale x1 x4 x5 (i 0) (i 1) (i 2) := by
  rw [val_main_v3_apply, val_main_v0_apply, val_main_v2_apply, val_main_v1_apply]
  simp only [lidx0, ridx0, bidx5]
  rfl

/-- The reference's scaled input x · s (its stage %4) at the token of output index j, feature k. -/
theorem xs_eq (x0 x1 : Tok.Idx → EReal) (x4 : Mat.Idx → EReal) (x5 : Row.Idx → EReal) (j : S4x4096x512.Idx) (k : Fin 512) :
    val_main_v4 (F := Ideal) x0 x1 x4 x5 (ix3 (n0 := 4) (n1 := 4096) (n2 := 512) (j 0) (j 1) k) = x0 (ix3 (n0 := 4) (n1 := 4096) (n2 := 512) (j 0) (j 1) k) * scale x1 x4 x5 (j 0) (j 1) k := by
  rw [val_main_v4_apply, scale_eq]; rfl

/-- The reference's squared scale s · s (its stage %6) at the token of output index j, feature k. -/
theorem ss_eq (x1 : Tok.Idx → EReal) (x4 : Mat.Idx → EReal) (x5 : Row.Idx → EReal) (j : S4x4096x512.Idx) (k : Fin 512) :
    val_main_v6 (F := Ideal) x1 x4 x5 (ix3 (n0 := 4) (n1 := 4096) (n2 := 512) (j 0) (j 1) k) = scale x1 x4 x5 (j 0) (j 1) k * scale x1 x4 x5 (j 0) (j 1) k := by
  rw [val_main_v6_apply, scale_eq]; rfl

/-- The reference's squared weight (its stage %7) at row (the output's feature), column k. -/
theorem ww_eq (x2 : Mat.Idx → EReal) (j : S4x4096x512.Idx) (k : Fin 512) :
    val_main_v7 (F := Ideal) x2 (ix2 (n0 := 512) (n1 := 512) (j 2) k) = x2 (ix2 (n0 := 512) (n1 := 512) (j 2) k) * x2 (ix2 (n0 := 512) (n1 := 512) (j 2) k) := rfl

/-- The reference's last stage at an output index is the specification there. -/
theorem result_at (x0 x1 : Tok.Idx → EReal) (x2 : Mat.Idx → EReal) (x3 : Row.Idx → EReal) (x4 : Mat.Idx → EReal) (x5 : Row.Idx → EReal)
    (i : S4x4096x512.Idx) : val_main_v15 (F := Ideal) x0 x1 x2 x3 x4 x5 i = result x0 x1 x2 x3 x4 x5 i := by
  rw [val_main_v15_apply, val_main_v12_apply, val_main_v5_apply, val_main_v11_apply, val_main_v10_apply, val_main_v8_apply,
    val_main_v9_apply, val_main_cst_apply, val_main_v14_apply, val_main_v13_apply]
  simp only [lidx5, ridx5, lidx8, ridx8, bidx3, xs_eq, ss_eq, ww_eq]
  rfl

/-- The reference's last stage is the specification. -/
theorem result_eq (x0 x1 : Tok.Idx → EReal) (x2 : Mat.Idx → EReal) (x3 : Row.Idx → EReal) (x4 : Mat.Idx → EReal) (x5 : Row.Idx → EReal) :
    val_main_v15 (F := Ideal) x0 x1 x2 x3 x4 x5 = result x0 x1 x2 x3 x4 x5 :=
  funext (result_at x0 x1 x2 x3 x4 x5)

end Cert.ModLinear.Ref

end
-- ==== Proof.lean ====
/-
  A modulated linear layer (per-token weight modulation and demodulation) as a tiled kernel against its plain reference,
  over the extended reals.

  Both programs compute, for token (b, r) and output feature o,
      s[b,r,i] = (∑ m, modulation[b,r,m] · mod_w[i,m]) + mod_b[i]
      out[b,r,o] = (∑ i, (x[b,r,i] · s[b,r,i]) · weight[o,i]) · rsqrt((∑ i, s[b,r,i]² · weight[o,i]²) + ε) + bias[o]
  with the same binary32 word for ε. The kernel does it one tile of 512 tokens at a time over a 4 × 8 grid, its three
  matrix products each contracting the second axis of both operands into a zero accumulator (the narrowing of the
  operands in front of them is the identity on extended reals); the reference does it with three contractions of the
  whole [4, 4096, 512] arrays. Reading both at an output index gives the same tree of sums and products of the same
  array entries, so no law of the extended reals is needed and the precondition is never opened.

  Spec.lean states the function; RefValue.lean reads the reference's stages at an index; KernelMatmul.lean and
  KernelPayload.lean read the kernel body's stored value at an index of a tile; KernelBlocks.lean reads each window's
  block off its array; TileSpec.lean and KernelValue.lean put a tile against the specification and tile the output array
  with the 32 blocks. The three frames are the generated ones (the reference's is its generated run with the result
  dropped); the idealization rewrote nothing, so its conjunct is trivial.
-/
import proofs.«149565_j46935402611220_1_alg».proof.Defs
import proofs.«149565_j46935402611220_1_alg».proof.Proof.Gen.Kernel
import proofs.«149565_j46935402611220_1_alg».proof.Proof.Gen.Kernel.Skeleton
import proofs.«149565_j46935402611220_1_alg».proof.Proof.Gen.Kernel.Launch
import proofs.«149565_j46935402611220_1_alg».proof.Proof.Gen.Kernel.Points
import proofs.«149565_j46935402611220_1_alg».proof.Proof.Gen.Kernel.Frame
import proofs.«149565_j46935402611220_1_alg».proof.Proof.Gen.KernelIdeal
import proofs.«149565_j46935402611220_1_alg».proof.Proof.Gen.KernelIdeal.Skeleton
import proofs.«149565_j46935402611220_1_alg».proof.Proof.Gen.KernelIdeal.Launch
import proofs.«149565_j46935402611220_1_alg».proof.Proof.Gen.KernelIdeal.Points
import proofs.«149565_j46935402611220_1_alg».proof.Proof.Gen.KernelIdeal.Frame
import proofs.«149565_j46935402611220_1_alg».proof.Proof.Gen.ReferenceIdeal
import proofs.«149565_j46935402611220_1_alg».proof.Proof.Gen.Pre_finite_inputs
import proofs.«149565_j46935402611220_1_alg».proof.Proof.Gen.KernelIdeal.Value
import proofs.«149565_j46935402611220_1_alg».proof.Proof.Gen.ReferenceIdeal.Run
import proofs.«149565_j46935402611220_1_alg».proof.Proof.Gen.ReferenceIdeal.Read
import proofs.«149565_j46935402611220_1_alg».proof.Proof.KernelValue
import proofs.«149565_j46935402611220_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the specification of its arguments, the reference's at its last stage, which is
    the specification of its own arguments; the arguments agree. -/
theorem algebraic : Cert.algebraic_KernelIdeal_ReferenceIdeal := by
  intro m ρ m' ρ' _ hagree
  refine ⟨fun c => Cert.ModLinear.Kern.spec m c, Cert.ModLinear.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ModLinear.Ref.result_eq]
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
